-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x3 .f32) (main_arg1 : IVec S8388608 32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_c_0 : IVec S_ 32 := constantI S_ 32 4294967295#32
  let main_v4 : IVec S8388608 32 := broadcastInDim S8388608 ![] bcast_S_S8388608 main_c_0
  let main_v5 : IVec S8388608 1 := cmpi .sge main_arg1 main_v4
  let main_c_1 : IVec S_ 32 := constantI S_ 32 1#32
  let main_v6 : IVec S8388608 32 := broadcastInDim S8388608 ![] bcast_S_S8388608 main_c_1
  let main_v7 : IVec S8388608 1 := cmpi .sle main_arg1 main_v6
  let main_v8 : IVec S8388608 1 := andi main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  main_v10
-- ==== Kernel.lean ====
abbrev S8388608x3 : Shape := ⟨2, ![8388608, 3]⟩
abbrev S8388608 : Shape := ⟨1, ![8388608]⟩
abbrev S1x1 : Shape := ⟨2, ![1, 1]⟩
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S1x1, .f32⟩
  | .hbm, ⟨3, _⟩ => ⟨S_, .f32⟩
  | .local _ .vmem, ⟨0, _⟩ => ⟨S8192x3, .f32⟩
  | .local _ .vmem, ⟨1, _⟩ => ⟨S8192x3, .f32⟩
  | .local _ .vmem, ⟨2, _⟩ => ⟨S8192, .i32⟩
  | .local _ .vmem, ⟨3, _⟩ => ⟨S8192, .i32⟩
  | .local _ .vmem, ⟨4, _⟩ => ⟨S1x1, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8192x3_S8192x3_0_0 : ∀ a, (![0, 0] : Fin 2 → Nat) a + S8192x3.size a ≤ S8192x3.size a
  h_S8192x3 : 0 < S8192x3.numel
  inb_S8192_S8192_0 : ∀ a, (![0] : Fin 1 → Nat) a + S8192.size a ≤ S8192.size a
  h_S8192 : 0 < S8192.numel
  reduces_S8192x3_S8192 : S8192x3.Reduces [1] S8192
  shapeCasts_S8192_S8192x1 : S8192.ShapeCasts S8192x1
  broadcasts_S8192x1_S8192x3 : S8192x1.Broadcasts S8192x3
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8388608x3.size a
  hwx0_0 : ∀ i : grid0.Coords, EltTy.bits .f32 = 32 ∨ (Rect.block (s := S8388608x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8388608.size a
  hwx0_1 : ∀ i : grid0.Coords, EltTy.bits .i32 = 32 ∨ (Rect.block (s := S8388608) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608 : Shape := ⟨1, ![8388608]⟩
abbrev S3 : Shape := ⟨1, ![3]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S3, .f32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608x1, .f32⟩
  | .hbm, ⟨9, _⟩ => ⟨S8388608x3, .f32⟩
  | .hbm, ⟨10, _⟩ => ⟨S8388608x3, .f32⟩
  | .hbm, ⟨11, _⟩ => ⟨S8388608x3, .f32⟩
  | .hbm, ⟨12, _⟩ => ⟨S_, .f32⟩
  | .hbm, ⟨13, _⟩ => ⟨S8388608, .f32⟩
  | .hbm, ⟨14, _⟩ => ⟨S8388608x1, .f32⟩
  | .hbm, ⟨15, _⟩ => ⟨S8388608x3, .f32⟩
  | .hbm, ⟨16, _⟩ => ⟨S8388608x3, .f32⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S_, .i32⟩
  | .hbm, ⟨22, _⟩ => ⟨S8388608x1, .i32⟩
  | .hbm, ⟨23, _⟩ => ⟨S8388608x1, .i1⟩
  | .hbm, ⟨24, _⟩ => ⟨S_, .i32⟩
  | .hbm, ⟨25, _⟩ => ⟨S8388608x1, .i32⟩
  | .hbm, ⟨26, _⟩ => ⟨S8388608x1, .i32⟩
  | .hbm, ⟨27, _⟩ => ⟨S8388608x1, .i32⟩
  | .hbm, ⟨28, _⟩ => ⟨S8388608x1x1, .i32⟩
  | .hbm, ⟨29, _⟩ => ⟨S1, .i32⟩
  | .hbm, ⟨30, _⟩ => ⟨S_, .i32⟩
  | .hbm, ⟨31, _⟩ => ⟨S8388608x1x1, .i32⟩
  | .hbm, ⟨32, _⟩ => ⟨S8388608x1x1, .i1⟩
  | .hbm, ⟨33, _⟩ => ⟨S1x1x1, .i32⟩
  | .hbm, ⟨34, _⟩ => ⟨S8388608x1x1, .i32⟩
  | .hbm, ⟨35, _⟩ => ⟨S8388608x1x1, .i1⟩
  | .hbm, ⟨36, _⟩ => ⟨S8388608x1x1, .i1⟩
  | .hbm, ⟨37, _⟩ => ⟨S_, .i1⟩
  | .hbm, ⟨38, _⟩ => ⟨S8388608x1, .i1⟩
  | .hbm, ⟨39, _⟩ => ⟨S8388608x1, .f32⟩
  | .hbm, ⟨40, _⟩ => ⟨S_, .f32⟩
  | .hbm, ⟨41, _⟩ => ⟨S8388608x1, .f32⟩
  | .hbm, ⟨42, _⟩ => ⟨S8388608x1, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S_, .i32⟩
  | .hbm, ⟨48, _⟩ => ⟨S8388608, .i32⟩
  | .hbm, ⟨49, _⟩ => ⟨S8388608, .i1⟩
  | .hbm, ⟨50, _⟩ => ⟨S_, .i32⟩
  | .hbm, ⟨51, _⟩ => ⟨S8388608, .i32⟩
  | .hbm, ⟨52, _⟩ => ⟨S8388608, .i32⟩
  | .hbm, ⟨53, _⟩ => ⟨S8388608, .i32⟩
  | .hbm, ⟨54, _⟩ => ⟨S8388608x1, .i32⟩
  | .hbm, ⟨55, _⟩ => ⟨S8388608, .f32⟩
  | .hbm, ⟨56, _⟩ => ⟨S8388608, .f32⟩
  | .hbm, ⟨57, _⟩ => ⟨S_, .f32⟩
  | .hbm, ⟨58, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩

abbrev nD : Nat := 1
abbrev τ : Topo := Topo.v7x

variable {F : FTy → Type} [FloatOps F]

class Facts₀ : Prop where
  reducesTo_S8388608x3_S8388608_d1 : S8388608x3.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  reducesTo_S8388608_S_d0 : S8388608.ReducesTo [0] S_
  gather_S8388608x3_S8388608x1x1_S8388608x1_n_1_0_0_1_2_11_wf : GatherDims.WF S8388608x3 S8388608x1x1 S8388608x1 [] [1] [0] [1] [0] 2 ![1, 1]
  gather_S3_S8388608x1_S8388608_n_0_n_n_0_1_1_wf : GatherDims.WF S3 S8388608x1 S8388608 [] [0] [] [0] [] 1 ![1]

variable [Facts₀]

def gather_S8388608x3_S8388608x1x1_S8388608x1_n_1_0_0_1_2_11 : GatherDims S8388608x3 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x3_S8388608x1x1_S8388608x1_n_1_0_0_1_2_11_wf
def gather_S3_S8388608x1_S8388608_n_0_n_n_0_1_1 : GatherDims S3 S8388608x1 S8388608 where
  offsetDims := []
  collapsedSliceDims := [0]
  operandBatchingDims := []
  startIndicesBatchingDims := []
  startIndexMap := [0]
  indexVectorDim := 1
  sliceSizes := ![1]
  wf := gather_S3_S8388608x1_S8388608_n_0_n_n_0_1_1_wf

class Facts : Prop extends Facts₀ where

variable [Facts]
-- ==== Proof.Spec.lean ====
/-
  The number both programs compute, as one function of the two argument arrays.

  The arguments are 8388608 rows of three logits and one label per row. For a row x and its label l:
  the softmax of x is taken with the row's largest entry subtracted first, prob x k = e^(x k - max x) / Σ_j e^(x j - max x);
  the class is l + 1; the entry picked is prob x 0 when the class is 0, prob x 1 when it is 1, and prob x 2 otherwise;
  the weight is 2 for class 0, 1/2 for class 1 and 2 otherwise; the row's term is weight · (picked - l)².
  The result is the sum of the terms over all rows. Everything is on the extended reals, where a sum may be
  regrouped freely: the sum over all rows is the sum, over 1024 consecutive blocks, of each block's 8192 rows.
-/
import Idealize.ShloMosaic.PureOps.Ideal
import Idealize.ShloMosaic.PureOps.Ideal.Laws

noncomputable section

open scoped BigOperators

namespace Cert.Loss

open Idealize.ShloMosaic

/-- A row's largest entry, as a fold of `max` over its three entries starting from the pattern of -∞. -/
def rowMax (x : Fin 3 → EReal) : EReal := Finset.univ.fold max (Ideal.ofBits .f32 0xFF800000#32) x

/-- e to the entry less the row's largest. -/
def expShift (x : Fin 3 → EReal) (k : Fin 3) : EReal := Ideal.exp (x k - rowMax x)

/-- The softmax of a row at class k. -/
def prob (x : Fin 3 → EReal) (k : Fin 3) : EReal := Ideal.div (expShift x k) (∑ j : Fin 3, expShift x j)

/-- The class of a label: the label plus one, as a 32-bit word. -/
def cls (l : BitVec 32) : BitVec 32 := IntOp.addi l 1#32

/-- The softmax entry a label picks: by comparing the class with 0, then with 1. -/
def picked (x : Fin 3 → EReal) (l : BitVec 32) : EReal :=
  Scalar.select (IntOp.cmpi .eq (cls l) 0#32) (prob x 0)
    (Scalar.select (IntOp.cmpi .eq (cls l) 1#32) (prob x 1) (prob x 2))

/-- The weight of a label's class: 2, 1/2, 2 (as the patterns of those numbers), by the same comparisons. -/
def weight (l : BitVec 32) : EReal :=
  Scalar.select (IntOp.cmpi .eq (cls l) 0#32) (Ideal.ofBits .f32 0x40000000#32)
    (Scalar.select (IntOp.cmpi .eq (cls l) 1#32) (Ideal.ofBits .f32 0x3F000000#32) (Ideal.ofBits .f32 0x40000000#32))

/-- One row's term: weight · (picked - label)², the label read as a signed integer. -/
def term (x : Fin 3 → EReal) (l : BitVec 32) : EReal :=
  weight l * ((picked x l - ((l.toInt : ℝ) : EReal)) * (picked x l - ((l.toInt : ℝ) : EReal)))

/-- The sum of the rows' terms. -/
def total (x : Fin 8388608 → Fin 3 → EReal) (l : Fin 8388608 → BitVec 32) : EReal :=
  ∑ i : Fin 8388608, term (x i) (l i)

/-- Row r of block t, among all rows. -/
def rowOf (t : Fin 1024) (r : Fin 8192) : Fin 8388608 := ⟨t.val * 8192 + r.val, by have := t.isLt; have := r.isLt; omega⟩

/-- A sum over all rows is the sum over the 1024 blocks of the sums over each block's 8192 rows. -/
theorem sum_rows_eq_sum_blocks {M : Type*} [AddCommMonoid M] (f : Fin 8388608 → M) :
    ∑ i : Fin 8388608, f i = ∑ t : Fin 1024, ∑ r : Fin 8192, f (rowOf t r) := by
  rw [← Fintype.sum_prod_type']
  refine (Fintype.sum_equiv (finProdFinEquiv (m := 1024) (n := 8192)) _ _ ?_).symm
  rintro ⟨t, r⟩
  refine congrArg f (Fin.ext ?_)
  simp only [finProdFinEquiv_apply_val, rowOf]
  omega

/-- The total as the blocks' sums. -/
theorem total_eq_sum_blocks (x : Fin 8388608 → Fin 3 → EReal) (l : Fin 8388608 → BitVec 32) :
    total x l = ∑ t : Fin 1024, ∑ r : Fin 8192, term (x (rowOf t r)) (l (rowOf t r)) :=
  sum_rows_eq_sum_blocks _

end Cert.Loss

end
-- ==== Proof.PreDecode.lean ====
/-
  What the precondition says of the labels. Its second conjunct is "every label l satisfies -1 ≤ l and l ≤ 1",
  printed as the conjunction over all rows of two signed comparisons against the words of -1 and 1; read back at a
  row it bounds the label's signed value between -1 and 1, and a 32-bit word with such a value is the word of
  -1, of 0 or of 1.
-/
import proofs.«427167_j22522808500489_2_alg».proof.Proof.Gen.Pre_finite_inputs
import Idealize.ShloMosaic.Lib.ValueIdx
import Idealize.ShloMosaic.Lib.ReduceAll

noncomputable section

namespace Cert.Pre_finite_inputs.Decode

open Cert.Pre_finite_inputs Cert.Pre_finite_inputs.Gen Idealize.ShloMosaic Idealize.ShloMosaic.ValueIdx

variable {F : FTy → Type} [FloatOps F]

/-- The scalar shape has one index. -/
instance : Subsingleton S_.Idx := ⟨fun _ _ => funext fun d => d.elim0⟩

/-- A 32-bit word whose signed value lies between -1 and 1 is the word of -1, 0 or 1. -/
theorem word_of_bounds (b : BitVec 32) (h1 : (-1 : Int) ≤ b.toInt) (h2 : b.toInt ≤ 1) :
    b = 0xFFFFFFFF#32 ∨ b = 0#32 ∨ b = 1#32 := by
  have e : b = BitVec.ofInt 32 b.toInt := (BitVec.ofInt_toInt).symm
  have hc : b.toInt = -1 ∨ b.toInt = 0 ∨ b.toInt = 1 := by omega
  rcases hc with h | h | h <;> rw [h] at e
  · exact Or.inl (e.trans (by decide))
  · exact Or.inr (Or.inl (e.trans (by decide)))
  · exact Or.inr (Or.inr (e.trans (by decide)))

theorem labels_of_pre (x : FVec F S8388608x3 .f32) (l : IVec S8388608 32)
    (h : Cert.Pre_finite_inputs.fn x l = fun _ => 1#1) :
    ∀ i : Fin 8388608, l (ix1 i) = 0xFFFFFFFF#32 ∨ l (ix1 i) = 0#32 ∨ l (ix1 i) = 1#32 := by
  intro i
  have h0 := congrFun h ix0
  dsimp only [fn] at h0
  have h1 := (IntOp.andi_eq_one.1 h0).2
  have h2 := Host.reduce_andi_all _ _ _ _ _ h1 (ix1 i)
  obtain ⟨hge, hle⟩ := IntOp.andi_eq_one.1 h2
  have hge' : (4294967295#32 : BitVec 32).toInt ≤ (l (ix1 i)).toInt := IntOp.cmpi_sge.1 hge
  have hle' : (l (ix1 i)).toInt ≤ (1#32 : BitVec 32).toInt := IntOp.cmpi_sle.1 hle
  exact word_of_bounds _ (by rw [show (4294967295#32 : BitVec 32).toInt = -1 from by decide] at hge'; exact hge')
    (by rw [show (1#32 : BitVec 32).toInt = 1 from by decide] at hle'; exact hle')

end Cert.Pre_finite_inputs.Decode

end
-- ==== Proof.KernelBlock.lean ====
/-
  One grid point's arithmetic on the extended reals: the value the body stores into the one-element accumulator
  is what the accumulator held plus the sum, over the block's 8192 rows, of the rows' terms; and the value the
  reset stores is zero.
-/
import proofs.«427167_j22522808500489_2_alg».proof.Proof.Gen.KernelIdeal.Skeleton
import proofs.«427167_j22522808500489_2_alg».proof.Proof.Spec
import Idealize.ShloMosaic.Lib.ValueIdx
import Idealize.ShloMosaic.Lib.ValueLayout
import Idealize.ShloMosaic.PureOps.Ideal.Laws

noncomputable section

namespace Cert.KernelIdeal.KernelBlock

open Cert.KernelIdeal Cert.KernelIdeal.Gen Idealize.ShloMosaic Idealize.ShloMosaic.ValueIdx

/-! ## Columns: a vector viewed as a one-column matrix, and back; one column spread over many -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector spread as a column over `b` columns reads, at `(p, c)`, the vector at `p`. -/
theorem column_spread_apply {a b : ℕ} (w : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ w hc) hb (ix2 p c) = w (ix1 p) :=
  (broadcastTo_a1_ab_apply _ hb p c).trans (shapeCast_a_a1_apply w hc p 0)

/-- Column `o` of a matrix, cut out as a one-column matrix and viewed as a vector, reads at `r` the matrix at `(r, o)`. -/
theorem column_apply {a b : ℕ} (o : ℕ) (m : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (r : Fin a) (k : Fin b) (hk : k.val = o) :
    shapeCast ⟨1, ![a]⟩ (extractStridedSlice ⟨2, ![a, 1]⟩ ![0, o] m hs) hc (ix1 r) = m (ix2 r k) :=
  (shapeCast_a1_a_apply _ hc r).trans (slice2_axis1_apply o m hs r 0 k (hk.trans (Nat.add_zero o).symm))

end Layout

/-! ## The two reductions along a row -/

/-- The index a row's reduction reads: row `r`, column `k`. -/
theorem lift_row (h : S8192x3.Reduces [1] S8192) (r : Fin 8192) (k : Fin 3) : h.lift (ix1 r) k = ix2 r k :=
  funext fun c => match c with
    | ⟨0, _⟩ => Fin.ext rfl
    | ⟨1, _⟩ => Fin.ext rfl

/-- A row's sum: the lane reduction by addition reads, at row `r`, the sum of the row's three entries. -/
theorem rowSum_apply (e : FVec Ideal S8192x3 .f32) (h : S8192x3.Reduces [1] S8192) (hφ : FKind.Formats .f32)
    (hacc : (0x00000000#32 : BitVec 32) = 0x00000000#32) (r : Fin 8192) :
    multiReduction .add [1] S8192 e 0x00000000#32 h hφ hacc (ix1 r) = ∑ k : Fin 3, e (ix2 r k) :=
  (Ideal.multiReduction_add_single e 0x00000000#32 h hφ hacc (ix1 r)).trans
    (Finset.sum_congr rfl fun k _ => congrArg e (lift_row h r k))

/-- A row's largest entry: the lane reduction by maximum from the pattern of -∞ reads, at row `r`, the fold of `max`
    over the row's three entries. -/
theorem rowMax_apply (x : FVec Ideal S8192x3 .f32) (h : S8192x3.Reduces [1] S8192) (hφ : FKind.Formats .f32)
    (hacc : (0xFF800000#32 : BitVec 32) = 0xFF800000#32) (r : Fin 8192) :
    multiReduction .maximumf [1] S8192 x 0xFF800000#32 h hφ hacc (ix1 r) = Cert.Loss.rowMax fun k => x (ix2 r k) :=
  (Ideal.multiReduction_maximumf_single x 0xFF800000#32 h hφ hacc (ix1 r)).trans
    (congrArg (Finset.univ.fold max (Ideal.ofBits .f32 0xFF800000#32)) (funext fun k => congrArg x (lift_row h r k)))

/-- The index the block's reduction reads: the one row, column `r`. -/
theorem lift_lane (h : S1x8192.Reduces [1] S1) (u : Fin 1) (r : Fin 8192) : h.lift (ix1 u) r = ix2 u r :=
  funext fun c => match c with
    | ⟨0, _⟩ => Fin.ext rfl
    | ⟨1, _⟩ => Fin.ext rfl

/-- The block's sum: the lane reduction by addition of a one-row matrix reads the sum of the row's 8192 entries. -/
theorem laneSum_apply (t : FVec Ideal S1x8192 .f32) (h : S1x8192.Reduces [1] S1) (hφ : FKind.Formats .f32)
    (hacc : (0x00000000#32 : BitVec 32) = 0x00000000#32) (u : Fin 1) :
    multiReduction .add [1] S1 t 0x00000000#32 h hφ hacc (ix1 u) = ∑ r : Fin 8192, t (ix2 u r) :=
  (Ideal.multiReduction_add_single t 0x00000000#32 h hφ hacc (ix1 u)).trans
    (Finset.sum_congr rfl fun k _ => congrArg t (lift_lane h u k))

/-! ## The softmax of a row -/

/-- e to the entry less the row's largest, as the block computes it for all rows at once, read at `(r, k)`. -/
theorem expShift_apply (x : FVec Ideal S8192x3 .f32) (h : S8192x3.Reduces [1] S8192) (hφ : FKind.Formats .f32)
    (hacc : (0xFF800000#32 : BitVec 32) = 0xFF800000#32) (hc : S8192.ShapeCasts S8192x1) (hb : S8192x1.Broadcasts S8192x3)
    (r : Fin 8192) (k : Fin 3) :
    exp (subf x (broadcastTo S8192x3 (shapeCast S8192x1 (multiReduction .maximumf [1] S8192 x 0xFF800000#32 h hφ hacc) hc) hb)) (ix2 r k)
      = Cert.Loss.expShift (fun k => x (ix2 r k)) k :=
  congrArg (fun m => Ideal.exp (x (ix2 r k) - m)) ((column_spread_apply _ hc hb r k).trans (rowMax_apply x h hφ hacc r))

/-- An entry over its row's sum, as the block computes it for all rows at once, read at `(r, k)`. -/
theorem overRowSum_apply (e : FVec Ideal S8192x3 .f32) (h : S8192x3.Reduces [1] S8192) (hφ : FKind.Formats .f32)
    (hacc : (0x00000000#32 : BitVec 32) = 0x00000000#32) (hc : S8192.ShapeCasts S8192x1) (hb : S8192x1.Broadcasts S8192x3)
    (r : Fin 8192) (k : Fin 3) :
    divf e (broadcastTo S8192x3 (shapeCast S8192x1 (multiReduction .add [1] S8192 e 0x00000000#32 h hφ hacc) hc) hb) (ix2 r k)
      = Ideal.div (e (ix2 r k)) (∑ j : Fin 3, e (ix2 r j)) :=
  congrArg (Ideal.div (e (ix2 r k))) ((column_spread_apply _ hc hb r k).trans (rowSum_apply e h hφ hacc r))

/-! ## The payloads at an index -/

/-- The one element of a one-by-one matrix. -/
theorem extractAt_11 {α : Type} (x : S1x1.Idx → α) (h : ∀ a, (![0, 0] : Fin 2 → ℕ) a < S1x1.size a) :
    extractAt ![0, 0] x h = x (ix2 (0 : Fin 1) (0 : Fin 1)) :=
  congrArg x (funext fun a => match a with
    | ⟨0, _⟩ => Fin.ext rfl
    | ⟨1, _⟩ => Fin.ext rfl)

/-- The accumulator's new value: what it held plus the sum of the block's 8192 per-row values. -/
theorem pay1_apply (t : FVec Ideal S1x8192 .f32) (acc : Vec Ideal S1x1 .f32) (j : S1x1.Idx) :
    k0_pay1 (F := Ideal) t acc j = acc j + ∑ r : Fin 8192, t (ix2 (0 : Fin 1) r) := by
  unfold k0_pay1
  refine (addf_apply _ _ j).trans ?_
  refine congrArg₂ (· + ·) (congrFun (shapeCast_self acc _) j) ?_
  refine (extractAt_11 _ _).trans ?_
  refine (shapeCast_a_1a_apply _ _ (0 : Fin 1) (0 : Fin 1)).trans ?_
  exact laneSum_apply t _ _ _ 0

/-- The block's per-row value at row `r` is the row's term. -/
theorem pay3_apply (x0 : Vec Ideal S8192x3 .f32) (x1 : Vec Ideal S8192 .i32) (u : Fin 1) (r : Fin 8192) :
    k0_pay3 (F := Ideal) x0 x1 (ix2 u r) = Cert.Loss.term (fun k => x0 (ix2 r k)) (x1 (ix1 r)) := by
  unfold k0_pay3
  refine (shapeCast_a_1a_apply _ _ u r).trans ?_
  dsimp only
  generalize hp : (divf _ _ : FVec Ideal S8192x3 .f32) = p
  have hprob : ∀ k : Fin 3, p (ix2 r k) = Cert.Loss.prob (fun k => x0 (ix2 r k)) k := fun k => by
    subst hp
    exact (overRowSum_apply _ _ _ _ _ _ r k).trans
      (congrArg₂ Ideal.div (expShift_apply _ _ _ _ _ _ r k) (Finset.sum_congr rfl fun j _ => expShift_apply _ _ _ _ _ _ r j))
  clear hp
  simp only [mulf_apply, subf_apply, select_apply]
  rw [column_apply 0 p _ _ r (0 : Fin 3) rfl, column_apply 1 p _ _ r (1 : Fin 3) rfl, column_apply 2 p _ _ r (2 : Fin 3) rfl,
    hprob, hprob, hprob]
  rfl

/-- The reset's value: zero at the accumulator's one index. -/
theorem pay2_apply (j : S1x1.Idx) : k0_pay2 (F := Ideal) j = 0 := by
  unfold k0_pay2
  exact Ideal.ofBits_zero_f32

/-- The stored value at the accumulator's one index: what was there plus the block's sum of terms. -/
theorem pay_apply (x0 : Vec Ideal S8192x3 .f32) (x1 : Vec Ideal S8192 .i32) (acc : Vec Ideal S1x1 .f32) (j : S1x1.Idx) :
    k0_pay1 (F := Ideal) (k0_pay3 x0 x1) acc j
      = acc j + ∑ r : Fin 8192, Cert.Loss.term (fun k => x0 (ix2 r k)) (x1 (ix1 r)) :=
  (pay1_apply _ acc j).trans (congrArg (acc j + ·) (Finset.sum_congr rfl fun r _ => pay3_apply x0 x1 0 r))

end Cert.KernelIdeal.KernelBlock

end
-- ==== Proof.KernelValue.lean ====
/-
  The kernel's run on the extended reals: every execution ends with the result buffer at `Cert.Loss.total` of
  the two argument arrays, the arguments unchanged.
-/
import proofs.«427167_j22522808500489_2_alg».proof.Proof.Gen.KernelIdeal.Frame
import proofs.«427167_j22522808500489_2_alg».proof.Proof.Spec
import proofs.«427167_j22522808500489_2_alg».proof.Proof.KernelBlock
import Idealize.ShloMosaic.Lib.ValueIdx
import Idealize.ShloMosaic.Lib.Pipeline.Value
import Idealize.ShloMosaic.Lib.Tactic

noncomputable section

namespace Cert.KernelIdeal.KernelValue

open Cert.KernelIdeal Cert.KernelIdeal.Gen Idealize.ShloMosaic Idealize.ShloMosaic.TcCoe Idealize.SL.Sem Idealize.ShloMosaic.ValueIdx

section pieces
variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later point's value: the body leaves, in the accumulator holding `xo`, the update of `xo` by the two input blocks. -/
theorem out_B (c : Dev nD) (i : grid0.Coords) (a1 : Memref sig .tc .vmem S8192x3 .f32) (h1 : a1.IsWhole)
    (a2 : Memref sig .tc .vmem S8192 .i32) (h2 : a2.IsWhole) (a3 : Memref sig .tc .vmem S1x1 .f32) (h3 : a3.IsWhole)
    (hc : ¬cond0_0 i) (x0 : Vec F S8192x3 .f32) (x1 : Vec F S8192 .i32) (xo : Vec F S1x1 .f32) :
    out0_B_2 c i a1 h1 a2 h2 a3 h3 hc x0 x1 xo = k0_pay1 (k0_pay3 x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S8192x3) hz,
    View.ld_unit_zero (S := S1x1) hz, View.ld_unit_zero (S := S8192) hz1]

/-- The first point's value: the body stores the zero, reads it back, and leaves its update by the two input blocks. -/
theorem out_A (c : Dev nD) (i : grid0.Coords) (a1 : Memref sig .tc .vmem S8192x3 .f32) (h1 : a1.IsWhole)
    (a2 : Memref sig .tc .vmem S8192 .i32) (h2 : a2.IsWhole) (a3 : Memref sig .tc .vmem S1x1 .f32) (h3 : a3.IsWhole)
    (hc : cond0_0 i) (x0 : Vec F S8192x3 .f32) (x1 : Vec F S8192 .i32) :
    out0_A_2 c i a1 h1 a2 h2 a3 h3 hc x0 x1 = k0_pay1 (k0_pay3 x0 x1) k0_pay2 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x3) hz,
    View.ld_unit_zero (S := S8192) hz1]
end pieces

section blocks
variable {F : FTy → Type} [FloatOps F]
variable (m : (ℓ : Loc nD τ sig) → Buf (Elt F) ℓ)

/-- The logits block at a point, by its literal type. -/
abbrev xblk (c : Dev nD) (t : Fin cfg0.N) : Vec F S8192x3 .f32 := iblk m c 0 t
/-- The labels block at a point, by its literal type. -/
abbrev lblk (c : Dev nD) (t : Fin cfg0.N) : Vec F S8192 .i32 := iblk m c 1 t

/-- The grid's one coordinate at a point is the point's number. -/
theorem coord0 (t : Fin cfg0.N) : (grid0.coords t 0).val = t.val := by
  have hN : cfg0.N = 1024 := N_0
  have ht := t.isLt
  show t.val / grid0.stride 0 % 1024 = t.val
  rw [show grid0.stride 0 = 1 from by decide]
  omega

/-- The logits window's block index at a point: (the point's number, 0). -/
theorem index0 (t : Fin cfg0.N) : win0_0.index t 0 = t.val ∧ win0_0.index t 1 = 0 := by
  have hN : cfg0.N = 1024 := N_0
  have ht := t.isLt
  refine ⟨?_, rfl⟩
  show (BitVec.ofNat 32 (grid0.coords t 0).val).toNat = t.val
  rw [BitVec.toNat_ofNat, coord0]
  exact Nat.mod_eq_of_lt (by omega)

/-- The labels window's block index at a point: the point's number. -/
theorem index1 (t : Fin cfg0.N) : win0_1.index t 0 = t.val := by
  have hN : cfg0.N = 1024 := N_0
  have ht := t.isLt
  show (BitVec.ofNat 32 (grid0.coords t 0).val).toNat = t.val
  rw [BitVec.toNat_ofNat, coord0]
  exact Nat.mod_eq_of_lt (by omega)

/-- The logits block at point t, row r, class k, is the logits array at row 8192 t + r, class k. -/
theorem xblk_apply (c : Dev nD) (t : Fin cfg0.N) (r : Fin 8192) (k : Fin 3) (h : t.val * 8192 + r.val < 8388608) :
    xblk m c t (ix2 r k) = (m ((c.tc : Thread nD τ).loc main_arg0) : FVec F S8388608x3 .f32) (ix2 ⟨t.val * 8192 + r.val, h⟩ k) := by
  have hi := index0 t
  unfold xblk iblk
  rw [View.read_apply]
  show V m c main_arg0 _ = m (c.tc.loc main_arg0) _
  unfold V
  congr 1
  funext a
  apply Fin.ext
  match a with
  | ⟨0, _⟩ => show win0_0.index t 0 * 8192 + 1 * r.val = t.val * 8192 + r.val; rw [hi.1]; omega
  | ⟨1, _⟩ => show win0_0.index t 1 * 3 + 1 * k.val = k.val; rw [hi.2]; omega

/-- The labels block at point t, row r, is the labels array at row 8192 t + r. -/
theorem lblk_apply (c : Dev nD) (t : Fin cfg0.N) (r : Fin 8192) (h : t.val * 8192 + r.val < 8388608) :
    lblk m c t (ix1 r) = (m ((c.tc : Thread nD τ).loc main_arg1) : IVec S8388608 32) (ix1 ⟨t.val * 8192 + r.val, h⟩) := by
  have hi := index1 t
  unfold lblk iblk
  rw [View.read_apply]
  show V m c main_arg1 _ = m (c.tc.loc main_arg1) _
  unfold V
  congr 1
  funext a
  apply Fin.ext
  match a with
  | ⟨0, _⟩ => show win0_1.index t 0 * 8192 + 1 * r.val = t.val * 8192 + r.val; rw [hi]; omega
end blocks

section ideal
variable (m : (ℓ : Loc nD τ sig) → Buf (Elt Ideal) ℓ)

/-- The logits array as rows of three extended reals. -/
abbrev xs (c : Dev nD) : Fin 8388608 → Fin 3 → EReal :=
  fun i k => (m ((c.tc : Thread nD τ).loc main_arg0) : FVec Ideal S8388608x3 .f32) (ix2 i k)
/-- The labels array as one word per row. -/
abbrev ls (c : Dev nD) : Fin 8388608 → BitVec 32 :=
  fun i => (m ((c.tc : Thread nD τ).loc main_arg1) : IVec S8388608 32) (ix1 i)

/-- Block t's sum of its rows' terms, read off the argument arrays; zero past the grid. -/
def bsum (c : Dev nD) (t : ℕ) : EReal :=
  if h : t < 1024 then ∑ r : Fin 8192, Cert.Loss.term (xs m c (Cert.Loss.rowOf ⟨t, h⟩ r)) (ls m c (Cert.Loss.rowOf ⟨t, h⟩ r)) else 0

/-- The sum of the terms of the rows of the blocks staged at point t is block t's sum. -/
theorem point_sum (c : Dev nD) (t : Fin cfg0.N) :
    ∑ r : Fin 8192, Cert.Loss.term (fun k => xblk m c t (ix2 r k)) (lblk m c t (ix1 r)) = bsum m c t.val := by
  have hN : cfg0.N = 1024 := N_0
  have ht : t.val < 1024 := by have := t.isLt; omega
  unfold bsum
  rw [dif_pos ht]
  refine Finset.sum_congr rfl fun r _ => ?_
  have hr := r.isLt
  have h : t.val * 8192 + r.val < 8388608 := by omega
  have e1 : (fun k => xblk m c t (ix2 r k)) = xs m c (Cert.Loss.rowOf ⟨t.val, ht⟩ r) :=
    funext fun k => xblk_apply m c t r k h
  have e2 : lblk m c t (ix1 r) = ls m c (Cert.Loss.rowOf ⟨t.val, ht⟩ r) := lblk_apply m c t r h
  exact congrArg₂ Cert.Loss.term e1 e2

/-- What the accumulator holds after point n is the sum of the blocks' sums up to n: by induction on the point. -/
theorem outsAt_eq (c : Dev nD) : ∀ (n : ℕ) (h : n < cfg0.N) (j : S1x1.Idx),
    (outsAt0 m c n h : Vec Ideal S1x1 .f32) j = ∑ t' ∈ Finset.range (n + 1), bsum m c t'
  | 0, h, j => by
    refine (congrFun (outsAt0_A m c ⟨0, h⟩ rfl) j).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (xblk m c ⟨0, h⟩) (lblk m c ⟨0, h⟩)) j).trans ?_
    refine (Cert.KernelIdeal.KernelBlock.pay_apply (xblk m c ⟨0, h⟩) (lblk m c ⟨0, h⟩) (k0_pay2 (F := Ideal)) j).trans ?_
    rw [Cert.KernelIdeal.KernelBlock.pay2_apply, zero_add, Finset.sum_range_one]
    exact point_sum m c ⟨0, h⟩
  | n + 1, h, j => by
    have hN : cfg0.N = 1024 := N_0
    have hB : ¬(⟨n + 1, h⟩ : Fin cfg0.N).val % 1024 = 0 := by dsimp only; omega
    refine (congrFun (outsAt0_B m c ⟨n + 1, h⟩ hB) j).trans ?_
    refine (congrFun (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun h' => hB ((hcond0_0 ⟨n + 1, h⟩).mp h')) (xblk m c ⟨n + 1, h⟩) (lblk m c ⟨n + 1, h⟩)
      (outsAt0 m c n (Nat.lt_of_succ_lt h))) j).trans ?_
    refine (Cert.KernelIdeal.KernelBlock.pay_apply (xblk m c ⟨n + 1, h⟩) (lblk m c ⟨n + 1, h⟩) (outsAt0 m c n (Nat.lt_of_succ_lt h)) j).trans ?_
    rw [Finset.sum_range_succ (fun t' => bsum m c t') (n + 1), outsAt_eq c n (Nat.lt_of_succ_lt h) j]
    exact congrArg (fun z => ∑ t' ∈ Finset.range (n + 1), bsum m c t' + z) (point_sum m c ⟨n + 1, h⟩)

/-- The result: the sum of all 1024 blocks' sums, as contents of the one-element result array. -/
abbrev result (c : Dev nD) : Buf (Elt Ideal) ((c : Thread nD τ).loc main_v0) :=
  (fun _ => ∑ t' ∈ Finset.range 1024, bsum m c t' : Vec Ideal S1x1 .f32)

end ideal

section final
variable (m : (ℓ : Loc nD τ sig) → Buf (Elt Ideal) ℓ)

/-- The last point of the grid, the one after which the accumulator is written back. -/
abbrev tLast : Fin cfg0.N := ⟨1023, by rw [show cfg0.N = 1024 from N_0]; decide⟩

/-- The one write-back, at the last point, writes the result: block (0, 0) of the one-element array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 1024 := N_0
  have h3 : t.val = 1023 := by have := (flush0_2 t).mp hf; have := t.isLt; omega
  show (cfg0.win 2).cut (grid0.coords t) ((dats m 0 c).after 2 t) = _
  rw [after0_2]
  have e : (outsAt0 m c t.val t.isLt : Vec Ideal S1x1 .f32) = result m c := funext fun j => by
    rw [outsAt_eq m c t.val t.isLt j, h3]
  rw [e]
  have hz' : (fun a => win0_2.index t a * main_v0.ty.shape.size a) = fun _ => 0 := funext fun a => by fin_cases a <;> rfl
  exact (Memref.read_access_unit_zero (Elt Ideal) main_v0 hz' (fun a => by rw [congrFun hz' a]; simp) (result m c)).symm

/-- So the result array ends holding the result: the last point's block covers it. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from rfl, show win0_2.xsize (grid0.coords tLast) 0 = 1 from rfl]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from rfl, show win0_2.xsize (grid0.coords tLast) 1 = 1 from rfl]; omega⟩

end final

section hosttail
variable (m : (ℓ : Loc nD τ sig) → Buf (Elt Ideal) ℓ)

/-- After the region the one-element array holds the result, -/
theorem arr_v0 (c : Dev nD) :
    Pipeline.withArrays (cfgs 0).spec c (V0 m c) (fun w => (dats m 0 c).arrAt w (cfgs 0).N) (Proc.devRef .tc main_v0) = result m c :=
  (Pipeline.withArrays_arr spec0 launch0.win.arr_inj c _ _ 2).trans (final_o m c)

/-- and the reshape to a scalar array reads it at its one index. -/
theorem tail_v1 (c : Dev nD) :
    Pipeline.afterTail₀ cfgs (dats m) 0 (V0 m) [hostOps1] c main_v1 = (fun _ => ∑ t' ∈ Finset.range 1024, bsum m c t' : Vec Ideal S_ .f32) := by
  unfold Pipeline.afterTail₀
  show StableHlo.after hostOps1 _ (Proc.devRef .tc main_v1) = _
  after_results
  funext i
  exact congrFun (congrArg (fun f : Vec Ideal S1x1 .f32 => shapeCast S_ f shapeCasts_S1x1_S_) (arr_v0 m c)) i
end hosttail

/-- Every run of the kernel ends with the scalar result at the total of the rows' terms, the arguments unchanged:
    the blocks' sums, added in point order, are the total regrouped by blocks. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = (fun _ => Cert.Loss.total
              (fun i k => (m ((c.tc : Thread nD τ).loc main_arg0) : FVec Ideal S8388608x3 .f32) (ix2 i k))
              (fun i => (m ((c.tc : Thread nD τ).loc main_arg1) : IVec S8388608 32) (ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v1 (Pipeline.mem_restRefs_of main_v1 (by decide) (by decide))).trans ?_
    refine (tail_v1 m c).trans ?_
    funext _
    rw [Cert.Loss.total_eq_sum_blocks, ← Fin.sum_univ_eq_sum_range (fun t' => bsum m c t') 1024]
    refine Finset.sum_congr rfl fun t _ => ?_
    unfold bsum
    rw [dif_pos t.isLt]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KernelValue

end
-- ==== Proof.RefTerm.lean ====
/-
  What the reference computes, written as one pure function of its two argument arrays, stage by stage in the
  order of its operations: the rows' largest entries; e to the entries less those; the rows' sums of these; the
  quotients (the softmax); the classes label + 1; the entry of each row's softmax at its class, as a take along
  the class axis (a negative start index moved up by 3, the read clamped into the axis, and a fill pattern where
  the moved index is outside 0..2); the residual against the label read as a number; its square; the weight read
  from the table (2, 1/2, 2) at the class (moved and clamped the same way); and the sum of weight · square over all rows.
  Stated for any reading of the floats; the run shows the result buffer holds `total` of the arguments, and at
  the exact reading `total` is evaluated row by row.
-/
import proofs.«427167_j22522808500489_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- Each row's largest entry: the reduce by `max` along the class axis from -∞, then `max` with -∞ once more. -/
def rowMaxes (x : FVec F S8388608x3 .f32) : FVec F S8388608 .f32 :=
  maximumf (broadcastInDim S8388608 ![] bcast_S_S8388608 (constant S_ .f32 0xFF800000#32))
    (Host.reduce FloatOps.maximumf x (constant S_ .f32 0xFF800000#32 : FVec F S_ .f32) reducesTo_S8388608x3_S8388608_d1 h_S_)

/-- A per-row value laid along the three classes. -/
def alongClasses (v : FVec F S8388608 .f32) : FVec F S8388608x3 .f32 :=
  broadcastInDim S8388608x3 ![0, 1] bcast_S8388608x1_S8388608x3_0_1 (broadcastInDim S8388608x1 ![0] bcast_S8388608_S8388608x1_0 v)

/-- e to each entry less its row's largest. -/
def expShifted (x : FVec F S8388608x3 .f32) : FVec F S8388608x3 .f32 :=
  Host.exp (subf x (alongClasses (rowMaxes x)))

/-- Each row's sum of those, from 0. -/
def rowSums (x : FVec F S8388608x3 .f32) : FVec F S8388608 .f32 :=
  Host.reduceAdd (expShifted x) (constant S_ .f32 0x00000000#32 : FVec F S_ .f32) reducesTo_S8388608x3_S8388608_d1 h_S_

/-- The softmax of every row. -/
def probs (x : FVec F S8388608x3 .f32) : FVec F S8388608x3 .f32 :=
  Host.divf (expShifted x) (alongClasses (rowSums x))

/-- The classes: label + 1. -/
def classes (l : IVec S8388608 32) : IVec S8388608 32 :=
  addi l (broadcastInDim S8388608 ![] bcast_S_S8388608 (constantI S_ 32 1#32))

/-- The classes as a column. -/
def classColumn (l : IVec S8388608 32) : IVec S8388608x1 32 :=
  broadcastInDim S8388608x1 ![0] bcast_S8388608_S8388608x1_0 (classes l)

/-- The take's start indices: a negative one moved up by the axis's length 3. -/
def takeStarts (i : IVec S8388608x1 32) : IVec S8388608x1x1 32 :=
  shapeCast S8388608x1x1
    (select (cmpi .slt i (broadcastInDim S8388608x1 ![] bcast_S_S8388608x1 (constantI S_ 32 0#32)))
      (addi i (broadcastInDim S8388608x1 ![] bcast_S_S8388608x1 (constantI S_ 32 3#32))) i)
    shapeCasts_S8388608x1_S8388608x1x1

/-- Where the moved start index lies in 0..2. -/
def takeInRange (s : IVec S8388608x1x1 32) : IVec S8388608x1 1 :=
  Host.reduce IntOp.andi
    (andi (cmpi .sge s (broadcastInDim S8388608x1x1 ![] bcast_S_S8388608x1x1 (constantI S_ 32 0#32)))
      (cmpi .sle s (broadcastInDim S8388608x1x1 ![0, 1, 2] bcast_S1x1x1_S8388608x1x1_0_1_2
        (broadcastInDim S1x1x1 ![2] bcast_S1_S1x1x1_2 (constantI S1 32 2#32)))))
    (constantI S_ 1 1#1) reducesTo_S8388608x1x1_S8388608x1_d2 h_S_

/-- The take along the class axis: the gathered entry where the start index is in range, the fill pattern elsewhere. -/
def taken (p : FVec F S8388608x3 .f32) (i : IVec S8388608x1 32) : FVec F S8388608x1 .f32 :=
  select (takeInRange (takeStarts i))
    (Host.gather gather_S8388608x3_S8388608x1x1_S8388608x1_n_1_0_0_1_2_11 p (takeStarts i))
    (broadcastInDim S8388608x1 ![] bcast_S_S8388608x1 (constant S_ .f32 0x7FC00000#32))

/-- The picked softmax entry less the label read as a number. -/
def residual (x : FVec F S8388608x3 .f32) (l : IVec S8388608 32) : FVec F S8388608 .f32 :=
  subf (shapeCast S8388608 (taken (probs x) (classColumn l)) shapeCasts_S8388608x1_S8388608) (sitofp .f32 l)

/-- Its square. -/
def sqErr (x : FVec F S8388608x3 .f32) (l : IVec S8388608 32) : FVec F S8388608 .f32 :=
  mulf (residual x l) (residual x l)

/-- The table of weights (2, 1/2, 2), as its patterns. -/
def weightTable : FVec F S3 .f32 := fun i => FloatOps.ofBits .f32 (lit0 (S3.rowMajor i))

/-- The weight of every row: the table read at the class, a negative class moved up by 3, the read clamped. -/
def weights (l : IVec S8388608 32) : FVec F S8388608 .f32 :=
  Host.gather gather_S3_S8388608x1_S8388608_n_0_n_n_0_1_1 (weightTable (F := F))
    (broadcastInDim S8388608x1 ![0] bcast_S8388608_S8388608x1_0
      (select (cmpi .slt (classes l) (broadcastInDim S8388608 ![] bcast_S_S8388608 (constantI S_ 32 0#32)))
        (addi (classes l) (broadcastInDim S8388608 ![] bcast_S_S8388608 (constantI S_ 32 3#32))) (classes l)))

/-- The reference's result: the sum over all rows of weight · squared residual, from 0. -/
def total (x : FVec F S8388608x3 .f32) (l : IVec S8388608 32) : FVec F S_ .f32 :=
  Host.reduceAdd (mulf (weights l) (sqErr x l)) (constant S_ .f32 0x00000000#32 : FVec F S_ .f32) reducesTo_S8388608_S_d0 h_S_

end Cert.ReferenceIdeal.RefTerm

end
-- ==== Proof.RefRun.lean ====
/-
  The reference's run: its operations in order, and that every execution ends with the result buffer at
  `RefTerm.total` of the two argument arrays, the arguments unchanged.
-/
import proofs.«427167_j22522808500489_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 57 operations of the reference in the order they run: the 19 of @main up to the call (the weight table, the
    softmax of every row, the classes as a column), the 22 of the take along the class axis at the call's own buffers
    (its operands the softmax and the class column, its result the buffer @main reads next), and the 16 of @main after
    it (the residual, its square, the weight of every row, the weighted sum). The take's operations are written over
    the buffers themselves: a typed reference to a literal buffer moves contents along an equation that is the
    identity, so each is the operation the take's body states. -/
abbrev ops : List (HloOp τ sig (Elt F)) :=
  [ nullary main_cst (fun i => FloatOps.ofBits .f32 (lit0 (S3.rowMajor i))),
    nullary main_cst_0 (constant S_ .f32 0xFF800000#32),
    binary main_arg0 main_cst_0 main_v0 ((fun x v => Host.reduce FloatOps.maximumf x v reducesTo_S8388608x3_S8388608_d1 h_S_) : (⟨S8388608x3, .f32⟩ : BufTy).Contents (Elt F) → (⟨S_, .f32⟩ : BufTy).Contents (Elt F) → (⟨S8388608, .f32⟩ : BufTy).Contents (Elt F)),
    nullary main_cst_1 (constant S_ .f32 0xFF800000#32),
    unary main_cst_1 main_v1 (broadcastInDim S8388608 ![] bcast_S_S8388608 : (⟨S_, .f32⟩ : BufTy).Contents (Elt F) → (⟨S8388608, .f32⟩ : BufTy).Contents (Elt F)),
    binary main_v1 main_v0 main_v2 (maximumf : (⟨S8388608, .f32⟩ : BufTy).Contents (Elt F) → (⟨S8388608, .f32⟩ : BufTy).Contents (Elt F) → (⟨S8388608, .f32⟩ : BufTy).Contents (Elt F)),
    unary main_v2 main_v3 (broadcastInDim S8388608x1 ![0] bcast_S8388608_S8388608x1_0 : (⟨S8388608, .f32⟩ : BufTy).Contents (Elt F) → (⟨S8388608x1, .f32⟩ : BufTy).Contents (Elt F)),
    unary main_v3 main_v4 (broadcastInDim S8388608x3 ![0, 1] bcast_S8388608x1_S8388608x3_0_1 : (⟨S8388608x1, .f32⟩ : BufTy).Contents (Elt F) → (⟨S8388608x3, .f32⟩ : BufTy).Contents (Elt F)),
    binary main_arg0 main_v4 main_v5 (subf : (⟨S8388608x3, .f32⟩ : BufTy).Contents (Elt F) → (⟨S8388608x3, .f32⟩ : BufTy).Contents (Elt F) → (⟨S8388608x3, .f32⟩ : BufTy).Contents (Elt F)),
    unary main_v5 main_v6 (Host.exp : (⟨S8388608x3, .f32⟩ : BufTy).Contents (Elt F) → (⟨S8388608x3, .f32⟩ : BufTy).Contents (Elt F)),
    nullary main_cst_2 (constant S_ .f32 0x00000000#32),
    binary main_v6 main_cst_2 main_v7 ((fun x v => Host.reduceAdd x v reducesTo_S8388608x3_S8388608_d1 h_S_) : (⟨S8388608x3, .f32⟩ : BufTy).Contents (Elt F) → (⟨S_, .f32⟩ : BufTy).Contents (Elt F) → (⟨S8388608, .f32⟩ : BufTy).Contents (Elt F)),
    unary main_v7 main_v8 (broadcastInDim S8388608x1 ![0] bcast_S8388608_S8388608x1_0 : (⟨S8388608, .f32⟩ : BufTy).Contents (Elt F) → (⟨S8388608x1, .f32⟩ : BufTy).Contents (Elt F)),
    unary main_v8 main_v9 (broadcastInDim S8388608x3 ![0, 1] bcast_S8388608x1_S8388608x3_0_1 : (⟨S8388608x1, .f32⟩ : BufTy).Contents (Elt F) → (⟨S8388608x3, .f32⟩ : BufTy).Contents (Elt F)),
    binary main_v6 main_v9 main_v10 (Host.divf : (⟨S8388608x3, .f32⟩ : BufTy).Contents (Elt F) → (⟨S8388608x3, .f32⟩ : BufTy).Contents (Elt F) → (⟨S8388608x3, .f32⟩ : BufTy).Contents (Elt F)),
    nullary main_c (constantI S_ 32 1#32),
    unary main_c main_v11 (broadcastInDim S8388608 ![] bcast_S_S8388608 : (⟨S_, .i32⟩ : BufTy).Contents (Elt F) → (⟨S8388608, .i32⟩ : BufTy).Contents (Elt F)),
    binary main_arg1 main_v11 main_v12 (addi : (⟨S8388608, .i32⟩ : BufTy).Contents (Elt F) → (⟨S8388608, .i32⟩ : BufTy).Contents (Elt F) → (⟨S8388608, .i32⟩ : BufTy).Contents (Elt F)),
    unary main_v12 main_v13 (broadcastInDim S8388608x1 ![0] bcast_S8388608_S8388608x1_0 : (⟨S8388608, .i32⟩ : BufTy).Contents (Elt F) → (⟨S8388608x1, .i32⟩ : BufTy).Contents (Elt F)),
    nullary main_call0_c (constantI S_ 32 0#32),
    unary main_call0_c main_call0_v0 (broadcastInDim S8388608x1 ![] bcast_S_S8388608x1 : (⟨S_, .i32⟩ : BufTy).Contents (Elt F) → (⟨S8388608x1, .i32⟩ : BufTy).Contents (Elt F)),
    binary main_v13 main_call0_v0 main_call0_v1 (cmpi .slt : (⟨S8388608x1, .i32⟩ : BufTy).Contents (Elt F) → (⟨S8388608x1, .i32⟩ : BufTy).Contents (Elt F) → (⟨S8388608x1, .i1⟩ : BufTy).Contents (Elt F)),
    nullary main_call0_c_0 (constantI S_ 32 3#32),
    unary main_call0_c_0 main_call0_v2 (broadcastInDim S8388608x1 ![] bcast_S_S8388608x1 : (⟨S_, .i32⟩ : BufTy).Contents (Elt F) → (⟨S8388608x1, .i32⟩ : BufTy).Contents (Elt F)),
    binary main_v13 main_call0_v2 main_call0_v3 (addi : (⟨S8388608x1, .i32⟩ : BufTy).Contents (Elt F) → (⟨S8388608x1, .i32⟩ : BufTy).Contents (Elt F) → (⟨S8388608x1, .i32⟩ : BufTy).Contents (Elt F)),
    ternary main_call0_v1 main_call0_v3 main_v13 main_call0_v4 (select : (⟨S8388608x1, .i1⟩ : BufTy).Contents (Elt F) → (⟨S8388608x1, .i32⟩ : BufTy).Contents (Elt F) → (⟨S8388608x1, .i32⟩ : BufTy).Contents (Elt F) → (⟨S8388608x1, .i32⟩ : BufTy).Contents (Elt F)),
    reshape main_call0_v4 main_call0_v5 rfl shapeCasts_S8388608x1_S8388608x1x1,
    nullary main_call0_c_1 (constantI S1 32 2#32),
    nullary main_call0_c_2 (constantI S_ 32 0#32),
    unary main_call0_c_2 main_call0_v6 (broadcastInDim S8388608x1x1 ![] bcast_S_S8388608x1x1 : (⟨S_, .i32⟩ : BufTy).Contents (Elt F) → (⟨S8388608x1x1, .i32⟩ : BufTy).Contents (Elt F)),
    binary main_call0_v5 main_call0_v6 main_call0_v7 (cmpi .sge : (⟨S8388608x1x1, .i32⟩ : BufTy).Contents (Elt F) → (⟨S8388608x1x1, .i32⟩ : BufTy).Contents (Elt F) → (⟨S8388608x1x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S8388608x1x1 ![0, 1, 2] bcast_S1x1x1_S8388608x1x1_0_1_2 : (⟨S1x1x1, .i32⟩ : BufTy).Contents (Elt F) → (⟨S8388608x1x1, .i32⟩ : BufTy).Contents (Elt F)),
    binary main_call0_v5 main_call0_v9 main_call0_v10 (cmpi .sle : (⟨S8388608x1x1, .i32⟩ : BufTy).Contents (Elt F) → (⟨S8388608x1x1, .i32⟩ : BufTy).Contents (Elt F) → (⟨S8388608x1x1, .i1⟩ : BufTy).Contents (Elt F)),
    binary main_call0_v7 main_call0_v10 main_call0_v11 (andi : (⟨S8388608x1x1, .i1⟩ : BufTy).Contents (Elt F) → (⟨S8388608x1x1, .i1⟩ : BufTy).Contents (Elt F) → (⟨S8388608x1x1, .i1⟩ : BufTy).Contents (Elt F)),
    nullary main_call0_c_3 (constantI S_ 1 1#1),
    binary main_call0_v11 main_call0_c_3 main_call0_v12 ((fun x v => Host.reduce IntOp.andi x v reducesTo_S8388608x1x1_S8388608x1_d2 h_S_) : (⟨S8388608x1x1, .i1⟩ : BufTy).Contents (Elt F) → (⟨S_, .i1⟩ : BufTy).Contents (Elt F) → (⟨S8388608x1, .i1⟩ : BufTy).Contents (Elt F)),
    binary main_v10 main_call0_v5 main_call0_v13 ((fun x i => Host.gather gather_S8388608x3_S8388608x1x1_S8388608x1_n_1_0_0_1_2_11 x i) : (⟨S8388608x3, .f32⟩ : BufTy).Contents (Elt F) → (⟨S8388608x1x1, .i32⟩ : BufTy).Contents (Elt F) → (⟨S8388608x1, .f32⟩ : BufTy).Contents (Elt F)),
    nullary main_call0_cst (constant S_ .f32 0x7FC00000#32),
    unary main_call0_cst main_call0_v14 (broadcastInDim S8388608x1 ![] bcast_S_S8388608x1 : (⟨S_, .f32⟩ : BufTy).Contents (Elt F) → (⟨S8388608x1, .f32⟩ : BufTy).Contents (Elt F)),
    ternary main_call0_v12 main_call0_v13 main_call0_v14 main_v14 (select : (⟨S8388608x1, .i1⟩ : BufTy).Contents (Elt F) → (⟨S8388608x1, .f32⟩ : BufTy).Contents (Elt F) → (⟨S8388608x1, .f32⟩ : BufTy).Contents (Elt F) → (⟨S8388608x1, .f32⟩ : BufTy).Contents (Elt F)),
    reshape main_v14 main_v15 rfl shapeCasts_S8388608x1_S8388608,
    unary main_arg1 main_v16 (sitofp .f32 : (⟨S8388608, .i32⟩ : BufTy).Contents (Elt F) → (⟨S8388608, .f32⟩ : BufTy).Contents (Elt F)),
    binary main_v15 main_v16 main_v17 (subf : (⟨S8388608, .f32⟩ : BufTy).Contents (Elt F) → (⟨S8388608, .f32⟩ : BufTy).Contents (Elt F) → (⟨S8388608, .f32⟩ : BufTy).Contents (Elt F)),
    binary main_v17 main_v17 main_v18 (mulf : (⟨S8388608, .f32⟩ : BufTy).Contents (Elt F) → (⟨S8388608, .f32⟩ : BufTy).Contents (Elt F) → (⟨S8388608, .f32⟩ : BufTy).Contents (Elt F)),
    nullary main_c_3 (constantI S_ 32 0#32),
    unary main_c_3 main_v19 (broadcastInDim S8388608 ![] bcast_S_S8388608 : (⟨S_, .i32⟩ : BufTy).Contents (Elt F) → (⟨S8388608, .i32⟩ : BufTy).Contents (Elt F)),
    binary main_v12 main_v19 main_v20 (cmpi .slt : (⟨S8388608, .i32⟩ : BufTy).Contents (Elt F) → (⟨S8388608, .i32⟩ : BufTy).Contents (Elt F) → (⟨S8388608, .i1⟩ : BufTy).Contents (Elt F)),
    nullary main_c_4 (constantI S_ 32 3#32),
    unary main_c_4 main_v21 (broadcastInDim S8388608 ![] bcast_S_S8388608 : (⟨S_, .i32⟩ : BufTy).Contents (Elt F) → (⟨S8388608, .i32⟩ : BufTy).Contents (Elt F)),
    binary main_v12 main_v21 main_v22 (addi : (⟨S8388608, .i32⟩ : BufTy).Contents (Elt F) → (⟨S8388608, .i32⟩ : BufTy).Contents (Elt F) → (⟨S8388608, .i32⟩ : BufTy).Contents (Elt F)),
    ternary main_v20 main_v22 main_v12 main_v23 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v23 main_v24 (broadcastInDim S8388608x1 ![0] bcast_S8388608_S8388608x1_0 : (⟨S8388608, .i32⟩ : BufTy).Contents (Elt F) → (⟨S8388608x1, .i32⟩ : BufTy).Contents (Elt F)),
    binary main_cst main_v24 main_v25 ((fun x i => Host.gather gather_S3_S8388608x1_S8388608_n_0_n_n_0_1_1 x i) : (⟨S3, .f32⟩ : BufTy).Contents (Elt F) → (⟨S8388608x1, .i32⟩ : BufTy).Contents (Elt F) → (⟨S8388608, .f32⟩ : BufTy).Contents (Elt F)),
    binary main_v25 main_v18 main_v26 (mulf : (⟨S8388608, .f32⟩ : BufTy).Contents (Elt F) → (⟨S8388608, .f32⟩ : BufTy).Contents (Elt F) → (⟨S8388608, .f32⟩ : BufTy).Contents (Elt F)),
    nullary main_cst_5 (constant S_ .f32 0x00000000#32),
    binary main_v26 main_cst_5 main_v27 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)) ]

-- the reductions and the gathers stay folded while the two chains are compared: the comparison never looks inside them
attribute [local irreducible] Host.reduce Host.reduceAdd Host.gather in
-- 57 sequenced steps re-associated one statement at a time, then compared step by step
set_option maxRecDepth 16384 in
/-- @main is that straight line: the take's body unfolded at its call, both sides are one chain of steps once the
    sequencing is re-associated; a step of the take agrees with the listed one because the typed references' moves of
    contents are the identity at literal buffers. -/
theorem main_eq (c : Dev nD) : main (F := F) c = seq ops := by
  simp only [main, fn_take_along_axis.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub ..⟩

/-- The take's reshape read at its result buffer: the operand's contents at the shape 8388608 × 1 × 1. -/
theorem starts_result (W : Valuation τ sig (Elt F)) :
    (reshape (τ := τ) (Val := Elt F) main_call0_v4 main_call0_v5 rfl shapeCasts_S8388608x1_S8388608x1x1).result W
        (no_index (Proc.devRef .tc main_call0_v5))
      = shapeCast S8388608x1x1 (W (Proc.devRef .tc main_call0_v4)) shapeCasts_S8388608x1_S8388608x1x1 :=
  reshape_result ..

/-- @main's reshape read at its result buffer: the operand's contents at the shape 8388608. -/
theorem flat_result (W : Valuation τ sig (Elt F)) :
    (reshape (τ := τ) (Val := Elt F) main_v14 main_v15 rfl shapeCasts_S8388608x1_S8388608).result W
        (no_index (Proc.devRef .tc main_v15))
      = shapeCast S8388608 (W (Proc.devRef .tc main_v14)) shapeCasts_S8388608x1_S8388608 :=
  reshape_result ..

set_option maxRecDepth 8192 in
set_option maxHeartbeats 400000 in
/-- The result buffer after the line: each operation's result read at its own buffer is its function of its operands'
    contents, every other buffer is left as it was, and what composes is `RefTerm.total`, stage by stage. -/
theorem out_eq (V : Valuation τ sig (Elt F)) :
    after ops V (main_v27 : DevRef τ sig) = RefTerm.total (V (main_arg0 : DevRef τ sig)) (V (main_arg1 : DevRef τ sig)) := by
  simp only [RefTerm.total, RefTerm.weights, RefTerm.sqErr, RefTerm.residual, RefTerm.taken, RefTerm.takeInRange,
    RefTerm.takeStarts, RefTerm.classColumn, RefTerm.classes, RefTerm.probs, RefTerm.rowSums, RefTerm.expShifted,
    RefTerm.alongClasses, RefTerm.rowMaxes, RefTerm.weightTable]
  simp (disch := decide) only [after_cons, after_nil, starts_result, flat_result,
      nullary_result', unary_result', binary_result', ternary_result',
      nullary_result_ne', unary_result_ne', binary_result_ne', ternary_result_ne', reshape_result_ne']
  rfl

set_option maxRecDepth 8192 in
/-- No operation writes the first argument. -/
theorem arg0_eq (V : Valuation τ sig (Elt F)) :
    after ops V (main_arg0 : DevRef τ sig) = V (main_arg0 : DevRef τ sig) := by
  simp (disch := decide) only [after_cons, after_nil,
      nullary_result_ne', unary_result_ne', binary_result_ne', ternary_result_ne', reshape_result_ne']

set_option maxRecDepth 8192 in
/-- No operation writes the second argument. -/
theorem arg1_eq (V : Valuation τ sig (Elt F)) :
    after ops V (main_arg1 : DevRef τ sig) = V (main_arg1 : DevRef τ sig) := by
  simp (disch := decide) only [after_cons, after_nil,
      nullary_result_ne', unary_result_ne', binary_result_ne', ternary_result_ne', reshape_result_ne']

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = RefTerm.total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefSoftmax.lean ====
/-
  The reference's softmax stages on the extended reals, read at one row and class: the entry of `RefTerm.probs` is
  `Cert.Loss.prob` of the row.
-/
import proofs.«427167_j22522808500489_2_alg».proof.Proof.RefTerm
import proofs.«427167_j22522808500489_2_alg».proof.Proof.Spec
import Idealize.ShloMosaic.Lib.ValueIdx
import Idealize.ShloMosaic.Lib.IdealHost

noncomputable section

namespace Cert.ReferenceIdeal.RefSoftmax

open Cert.ReferenceIdeal Cert.ReferenceIdeal.Gen Idealize.ShloMosaic Idealize.ShloMosaic.ValueIdx

/-- A per-row value laid along the classes reads, at row i and any class, the value of row i. -/
theorem alongClasses_apply (v : FVec Ideal S8388608 .f32) (i : Fin 8388608) (k : Fin 3) :
    RefTerm.alongClasses (F := Ideal) v (ix2 i k) = v (ix1 i) := by
  unfold RefTerm.alongClasses broadcastInDim
  refine congrArg v ?_
  funext a
  match a with
  | ⟨0, _⟩ => rfl

/-- Dropping the class axis of the rows-by-classes shape leaves the rows. -/
theorem reduces_d1 : S8388608x3.Reduces [1] S8388608 := by decide

/-- Row i with class k inserted on the dropped axis is the index (i, k). -/
theorem lift_d1 (i : Fin 8388608) (k : Fin 3) :
    reduces_d1.lift (ix1 i) k = ix2 i k := by
  funext c
  match c with
  | ⟨0, _⟩ => rfl
  | ⟨1, _⟩ => rfl

/-- Reading along the inserted class coordinate is reading the row's entries. -/
theorem comp_lift {α : Type} (x : S8388608x3.Idx → α) (i : Fin 8388608) :
    (x ∘ reduces_d1.lift (ix1 i)) = fun k : Fin 3 => x (ix2 i k) :=
  funext fun k => congrArg x (lift_d1 i k)

/-- A row's largest entry as the reference takes it: max of -∞ with the fold of max from -∞ over the row's three entries. -/
theorem rowMaxes_fold (x : FVec Ideal S8388608x3 .f32) (i : Fin 8388608) :
    RefTerm.rowMaxes (F := Ideal) x (ix1 i)
      = max (Ideal.ofBits .f32 0xFF800000#32)
          ((Finset.univ : Finset (Fin 3)).fold max (Ideal.ofBits .f32 0xFF800000#32) (fun k => x (ix2 i k))) := by
  unfold RefTerm.rowMaxes
  rw [maximumf_apply, Host.reduce_eq_fold_single (FloatOps.maximumf (F := Ideal) (φ := .f32)) x _
    reducesTo_S8388608x3_S8388608_d1 reduces_d1 h_S_ (ix1 i), comp_lift]
  rfl

/-- The outer max with the initial value is absorbed: the initial value is already below the fold. -/
theorem rowMaxes_apply (x : FVec Ideal S8388608x3 .f32) (i : Fin 8388608) :
    RefTerm.rowMaxes (F := Ideal) x (ix1 i) = Cert.Loss.rowMax (fun k => x (ix2 i k)) := by
  rw [rowMaxes_fold]
  exact max_eq_right ((Finset.le_fold_max _).2 (Or.inl le_rfl))

/-- e to the entry less the row's largest, at row i and class k. -/
theorem expShifted_apply (x : FVec Ideal S8388608x3 .f32) (i : Fin 8388608) (k : Fin 3) :
    RefTerm.expShifted (F := Ideal) x (ix2 i k) = Cert.Loss.expShift (fun k' => x (ix2 i k')) k := by
  show Ideal.exp (x (ix2 i k) - RefTerm.alongClasses (F := Ideal) (RefTerm.rowMaxes (F := Ideal) x) (ix2 i k)) = _
  rw [alongClasses_apply, rowMaxes_apply]
  rfl

/-- A row's sum: 0 plus the sum over the three classes. -/
theorem rowSums_apply (x : FVec Ideal S8388608x3 .f32) (i : Fin 8388608) :
    RefTerm.rowSums (F := Ideal) x (ix1 i) = ∑ k : Fin 3, Cert.Loss.expShift (fun k' => x (ix2 i k')) k := by
  unfold RefTerm.rowSums
  rw [hostReduceAdd_apply, Ideal.hostReduceAdd_single reducesTo_S8388608x3_S8388608_d1 reduces_d1]
  refine (congrArg₂ (· + ·) Ideal.ofBits_zero_f32
    (Finset.sum_congr rfl fun k _ =>
      (congrArg (RefTerm.expShifted (F := Ideal) x) (lift_d1 i k)).trans (expShifted_apply x i k))).trans ?_
  exact zero_add _

/-- The host's quotient at an index is the quotient of the entries. -/
theorem hostDivf_apply {s : Shape} (a b : FVec Ideal s .f32) (j : s.Idx) :
    Host.divf a b j = Ideal.div (a j) (b j) := rfl

theorem probs_apply (x : FVec Ideal S8388608x3 .f32) (i : Fin 8388608) (k : Fin 3) :
    RefTerm.probs (F := Ideal) x (ix2 i k) = Cert.Loss.prob (fun k' => x (ix2 i k')) k := by
  unfold RefTerm.probs
  rw [hostDivf_apply, alongClasses_apply, rowSums_apply, expShifted_apply]
  rfl

end Cert.ReferenceIdeal.RefSoftmax

end
-- ==== Proof.RefValue.lean ====
/-
  The reference's term on the extended reals, for labels in {-1, 0, 1}: it is the sum over the rows of
  weight · (softmax entry at label + 1, less the label)², the number `Cert.Loss.total` names.
-/
import proofs.«427167_j22522808500489_2_alg».proof.Proof.RefTerm
import proofs.«427167_j22522808500489_2_alg».proof.Proof.Spec
import proofs.«427167_j22522808500489_2_alg».proof.Proof.RefSoftmax
import Idealize.ShloMosaic.Lib.ValueIdx
import Idealize.ShloMosaic.Lib.ValueIdxRank1
import Idealize.ShloMosaic.Lib.IdealHost
import Idealize.ShloMosaic.Lib.StableHlo.Predicate
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx
open scoped BigOperators

/-! ## Words: the class of a label, its start index moved and clamped, the in-range bit -/

/-- A start index moved up by the axis's length 3 when it is negative. -/
def moved (c : BitVec 32) : BitVec 32 := Scalar.select (IntOp.cmpi .slt c 0#32) (IntOp.addi c 3#32) c

/-- The bit saying a start index lies in 0..2, met once more with the bit 1. -/
def inRange (s : BitVec 32) : BitVec 1 :=
  IntOp.andi (IntOp.andi (IntOp.cmpi .sge s 0#32) (IntOp.cmpi .sle s 2#32)) 1#1

/-- A start index read signed and clamped into the class axis. -/
def clampIdx (s : BitVec 32) : Fin 3 := ⟨min s.toInt.toNat 2, by omega⟩

/-- For the label -1 the class is 0, and it is not moved. -/
theorem moved_neg : moved (IntOp.addi 0xFFFFFFFF#32 1#32) = 0#32 := by decide
/-- For the label 0 the class is 1. -/
theorem moved_zero : moved (IntOp.addi 0#32 1#32) = 1#32 := by decide
/-- For the label 1 the class is 2. -/
theorem moved_one : moved (IntOp.addi 1#32 1#32) = 2#32 := by decide
theorem inRange_0 : inRange 0#32 = 1#1 := by decide
theorem inRange_1 : inRange 1#32 = 1#1 := by decide
theorem inRange_2 : inRange 2#32 = 1#1 := by decide
theorem clampIdx_0 : clampIdx 0#32 = 0 := by decide
theorem clampIdx_1 : clampIdx 1#32 = 1 := by decide
theorem clampIdx_2 : clampIdx 2#32 = 2 := by decide

/-- The entry the label -1 picks is the softmax at class 0. -/
theorem picked_neg (xr : Fin 3 → EReal) : Cert.Loss.picked xr 0xFFFFFFFF#32 = Cert.Loss.prob xr 0 := by
  unfold Cert.Loss.picked
  rw [show IntOp.cmpi .eq (Cert.Loss.cls 0xFFFFFFFF#32) 0#32 = 1#1 by decide, select_one]
/-- The entry the label 0 picks is the softmax at class 1. -/
theorem picked_zero (xr : Fin 3 → EReal) : Cert.Loss.picked xr 0#32 = Cert.Loss.prob xr 1 := by
  unfold Cert.Loss.picked
  rw [show IntOp.cmpi .eq (Cert.Loss.cls 0#32) 0#32 = 0#1 by decide, select_zero,
    show IntOp.cmpi .eq (Cert.Loss.cls 0#32) 1#32 = 1#1 by decide, select_one]
/-- The entry the label 1 picks is the softmax at class 2. -/
theorem picked_one (xr : Fin 3 → EReal) : Cert.Loss.picked xr 1#32 = Cert.Loss.prob xr 2 := by
  unfold Cert.Loss.picked
  rw [show IntOp.cmpi .eq (Cert.Loss.cls 1#32) 0#32 = 0#1 by decide, select_zero,
    show IntOp.cmpi .eq (Cert.Loss.cls 1#32) 1#32 = 0#1 by decide, select_zero]

/-- The weight of the label -1 is the table's entry 0. -/
theorem weight_neg : Cert.Loss.weight 0xFFFFFFFF#32 = Ideal.ofBits .f32 (lit0 0) := by
  unfold Cert.Loss.weight
  rw [show IntOp.cmpi .eq (Cert.Loss.cls 0xFFFFFFFF#32) 0#32 = 1#1 by decide, select_one]
  rfl
/-- The weight of the label 0 is the table's entry 1. -/
theorem weight_zero : Cert.Loss.weight 0#32 = Ideal.ofBits .f32 (lit0 1) := by
  unfold Cert.Loss.weight
  rw [show IntOp.cmpi .eq (Cert.Loss.cls 0#32) 0#32 = 0#1 by decide, select_zero,
    show IntOp.cmpi .eq (Cert.Loss.cls 0#32) 1#32 = 1#1 by decide, select_one]
  rfl
/-- The weight of the label 1 is the table's entry 2. -/
theorem weight_one : Cert.Loss.weight 1#32 = Ideal.ofBits .f32 (lit0 2) := by
  unfold Cert.Loss.weight
  rw [show IntOp.cmpi .eq (Cert.Loss.cls 1#32) 0#32 = 0#1 by decide, select_zero,
    show IntOp.cmpi .eq (Cert.Loss.cls 1#32) 1#32 = 0#1 by decide, select_zero]
  rfl

/-! ## The outer sum -/

/-- The reference's result is the sum, over the rows, of weight · squared residual. -/
theorem total_outer (x : FVec Ideal S8388608x3 .f32) (l : IVec S8388608 32) (j : S_.Idx) :
    RefTerm.total (F := Ideal) x l j
      = ∑ i : Fin 8388608, mulf (RefTerm.weights (F := Ideal) l) (RefTerm.sqErr x l) (ix1 i) := by
  unfold RefTerm.total
  rw [hostReduceAdd_apply, Ideal.hostReduceAdd_total _ (fun b => b.elim0)]
  rw [constant_apply, Ideal.ofBits_zero_f32, zero_add]
  exact (Equiv.sum_comp (idxEquiv1 (n := 8388608)).symm _).symm

/-! ## The integer stages at a row -/

/-- The class of row i is its label plus one. -/
theorem classes_apply (l : IVec S8388608 32) (i : Fin 8388608) :
    RefTerm.classes l (ix1 i) = IntOp.addi (l (ix1 i)) 1#32 := by
  unfold RefTerm.classes
  show IntOp.addi (l (ix1 i)) _ = _
  rw [broadcastInDim_scalar_apply]
  rfl

/-- The class column at (i, 0) is row i's class. -/
theorem classColumn_apply (l : IVec S8388608 32) (i : Fin 8388608) :
    RefTerm.classColumn l (ix2 i (0 : Fin 1)) = IntOp.addi (l (ix1 i)) 1#32 := by
  unfold RefTerm.classColumn
  rw [← classes_apply]
  refine broadcastInDim_apply _ _ _ _ (ix1 i) ?_
  intro a
  obtain rfl : a = 0 := Subsingleton.elim _ _
  rfl

/-- The take's start index at (i, 0, 0) is the column's entry at (i, 0), moved. -/
theorem takeStarts_apply (c : IVec S8388608x1 32) (i : Fin 8388608) :
    RefTerm.takeStarts c (ix3 i (0 : Fin 1) (0 : Fin 1)) = moved (c (ix2 i (0 : Fin 1))) := by
  unfold RefTerm.takeStarts
  refine (shapeCast_apply _ _ _ (ix2 i (0 : Fin 1)) ?_).trans ?_
  · rw [Shape.rowMajor_val_two, Shape.rowMajor_val_three]
    simp
  · show Scalar.select (IntOp.cmpi .slt (c (ix2 i 0)) _) (IntOp.addi (c (ix2 i 0)) _) (c (ix2 i 0)) = _
    rw [broadcastInDim_scalar_apply, broadcastInDim_scalar_apply]
    rfl

/-- A fold over the one coordinate of an axis of extent one. -/
theorem fold_fin_one {α : Type} (op : α → α → α) [Std.Commutative op] [Std.Associative op] (b : α) {n : Nat} (hn : n = 1)
    (f : Fin n → α) : (Finset.univ : Finset (Fin n)).fold op b f = op (f ⟨0, by omega⟩) b := by
  subst hn
  exact Finset.fold_singleton

/-- The in-range mask at (i, 0): the reduce along the last axis, of extent one, meets one bit with 1. -/
theorem takeInRange_apply (s : IVec S8388608x1x1 32) (i : Fin 8388608) :
    RefTerm.takeInRange s (ix2 i (0 : Fin 1)) = inRange (s (ix3 i (0 : Fin 1) (0 : Fin 1))) := by
  unfold RefTerm.takeInRange
  have hR : S8388608x1x1.Reduces [2] S8388608x1 := by decide
  refine (Host.reduce_eq_fold_single IntOp.andi _ _ reducesTo_S8388608x1x1_S8388608x1_d2 hR h_S_ _).trans ?_
  refine (fold_fin_one IntOp.andi _ (rfl : S8388608x1x1.size (2 : Fin 3) = 1) _).trans ?_
  have hl : hR.lift (ix2 i (0 : Fin 1)) (⟨0, by decide⟩ : Fin (S8388608x1x1.size (2 : Fin 3))) = ix3 i (0 : Fin 1) (0 : Fin 1) := by
    funext a
    match a with
    | ⟨0, _⟩ => exact Fin.ext rfl
    | ⟨1, _⟩ => exact Fin.ext rfl
    | ⟨2, _⟩ => exact Fin.ext rfl
  show IntOp.andi (IntOp.andi (IntOp.cmpi .sge (s (hR.lift (ix2 i (0 : Fin 1)) _)) _) (IntOp.cmpi .sle (s (hR.lift (ix2 i (0 : Fin 1)) _)) _)) _ = _
  rw [hl, broadcastInDim_scalar_apply]
  rfl

/-! ## The two gathers at a row -/

/-- The batched take at (i, 0) reads the operand at row i and the start index (i, 0, 0) clamped into the class axis. -/
theorem taken_gather_apply {α : Type} (p : S8388608x3.Idx → α) (idx : IVec S8388608x1x1 32) (i : Fin 8388608) :
    Host.gather gather_S8388608x3_S8388608x1x1_S8388608x1_n_1_0_0_1_2_11 p idx (ix2 i (0 : Fin 1))
      = p (ix2 i (clampIdx (idx (ix3 i (0 : Fin 1) (0 : Fin 1))))) := by
  unfold Host.gather
  refine congrArg p ?_
  funext a
  have hb0 : (0 : Fin 2) ∈ gather_S8388608x3_S8388608x1x1_S8388608x1_n_1_0_0_1_2_11.operandBatchingDims :=
    List.mem_singleton.mpr rfl
  have hk0 : (0 : Fin 2) ∉ gather_S8388608x3_S8388608x1x1_S8388608x1_n_1_0_0_1_2_11.sKept :=
    fun h => ((GatherDims.mem_sKept _ _).mp h).2 hb0
  have hb1 : (1 : Fin 2) ∉ gather_S8388608x3_S8388608x1x1_S8388608x1_n_1_0_0_1_2_11.operandBatchingDims := by
    intro h; exact absurd (List.mem_singleton.mp h) (by decide)
  have hk1 : (1 : Fin 2) ∉ gather_S8388608x3_S8388608x1x1_S8388608x1_n_1_0_0_1_2_11.sKept :=
    fun h => ((GatherDims.mem_sKept _ _).mp h).1 (List.mem_singleton.mpr rfl)
  have hm1 : (1 : Fin 2) ∈ gather_S8388608x3_S8388608x1x1_S8388608x1_n_1_0_0_1_2_11.startIndexMap :=
    List.mem_singleton.mpr rfl
  match a with
  | ⟨0, _⟩ =>
    apply Fin.ext
    show gather_S8388608x3_S8388608x1x1_S8388608x1_n_1_0_0_1_2_11.start (ix2 i (0 : Fin 1)) idx 0
        + gather_S8388608x3_S8388608x1x1_S8388608x1_n_1_0_0_1_2_11.batchCoord (ix2 i (0 : Fin 1)) 0
        + gather_S8388608x3_S8388608x1x1_S8388608x1_n_1_0_0_1_2_11.offCoord (ix2 i (0 : Fin 1)) 0 = i.val
    rw [GatherDims.start_batching _ _ _ _ hb0, GatherDims.offCoord_eq_zero _ _ _ hk0, Nat.zero_add, Nat.add_zero]
    unfold GatherDims.batchCoord
    rw [dif_pos hb0]
    rfl
  | ⟨1, _⟩ =>
    apply Fin.ext
    show gather_S8388608x3_S8388608x1x1_S8388608x1_n_1_0_0_1_2_11.start (ix2 i (0 : Fin 1)) idx 1
        + gather_S8388608x3_S8388608x1x1_S8388608x1_n_1_0_0_1_2_11.batchCoord (ix2 i (0 : Fin 1)) 1
        + gather_S8388608x3_S8388608x1x1_S8388608x1_n_1_0_0_1_2_11.offCoord (ix2 i (0 : Fin 1)) 1
        = min (idx (ix3 i (0 : Fin 1) (0 : Fin 1))).toInt.toNat 2
    rw [GatherDims.batchCoord_eq_zero _ _ _ hb1, GatherDims.offCoord_eq_zero _ _ _ hk1]
    simp only [Nat.add_zero]
    unfold GatherDims.start
    rw [dif_pos hm1]
    have hsi : gather_S8388608x3_S8388608x1x1_S8388608x1_n_1_0_0_1_2_11.siIdx (ix2 i (0 : Fin 1))
        ⟨List.idxOf (1 : Fin 2) gather_S8388608x3_S8388608x1x1_S8388608x1_n_1_0_0_1_2_11.startIndexMap,
          List.idxOf_lt_length_iff.2 hm1⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-- The weight of row i is the table's entry at the row's class, moved and clamped. -/
theorem weights_apply (l : IVec S8388608 32) (i : Fin 8388608) :
    RefTerm.weights (F := Ideal) l (ix1 i) = Ideal.ofBits .f32 (lit0 (clampIdx (moved (IntOp.addi (l (ix1 i)) 1#32)))) := by
  have e : ix1 i = Shape.Idx.ofFin i := Shape.Idx.eq_ofFin (ix1 i)
  have hidx : broadcastInDim S8388608x1 ![0] bcast_S8388608_S8388608x1_0
      (select (cmpi .slt (RefTerm.classes l) (broadcastInDim S8388608 ![] bcast_S_S8388608 (constantI S_ 32 0#32)))
        (addi (RefTerm.classes l) (broadcastInDim S8388608 ![] bcast_S_S8388608 (constantI S_ 32 3#32))) (RefTerm.classes l))
      (StableHlo.Predicate.ixP i) = moved (IntOp.addi (l (ix1 i)) 1#32) := by
    rw [StableHlo.Predicate.bcast_col1, ← e]
    show Scalar.select (IntOp.cmpi .slt (RefTerm.classes l (ix1 i)) _) (IntOp.addi (RefTerm.classes l (ix1 i)) _) (RefTerm.classes l (ix1 i)) = _
    rw [broadcastInDim_scalar_apply, broadcastInDim_scalar_apply, classes_apply]
    rfl
  rw [show RefTerm.weights (F := Ideal) l (ix1 i) = RefTerm.weights (F := Ideal) l (Shape.Idx.ofFin i) from congrArg _ e]
  unfold RefTerm.weights
  refine (StableHlo.Predicate.gather_take _ rfl rfl rfl rfl _ _ i (by decide)).trans ?_
  unfold RefTerm.weightTable
  refine congrArg (fun k => Ideal.ofBits .f32 (lit0 k)) (Fin.ext ?_)
  rw [Shape.rowMajor_val_one]
  show min (_ : BitVec 32).toInt.toNat (3 - 1) = min (_ : BitVec 32).toInt.toNat 2
  rw [hidx]

/-! ## One row -/

/-- The entry the take picks in row i is the softmax entry the label picks. -/
theorem taken_apply (x : FVec Ideal S8388608x3 .f32) (l : IVec S8388608 32) (i : Fin 8388608)
    (hc : l (ix1 i) = 0xFFFFFFFF#32 ∨ l (ix1 i) = 0#32 ∨ l (ix1 i) = 1#32) :
    RefTerm.taken (RefTerm.probs (F := Ideal) x) (RefTerm.classColumn l) (ix2 i (0 : Fin 1))
      = Cert.Loss.picked (fun k => x (ix2 i k)) (l (ix1 i)) := by
  unfold RefTerm.taken
  show Scalar.select (RefTerm.takeInRange (RefTerm.takeStarts (RefTerm.classColumn l)) (ix2 i (0 : Fin 1)))
      (Host.gather gather_S8388608x3_S8388608x1x1_S8388608x1_n_1_0_0_1_2_11 (RefTerm.probs (F := Ideal) x)
        (RefTerm.takeStarts (RefTerm.classColumn l)) (ix2 i (0 : Fin 1))) _ = _
  rw [takeInRange_apply, taken_gather_apply, takeStarts_apply, classColumn_apply]
  rcases hc with h | h | h
  · rw [h, moved_neg, inRange_0, clampIdx_0, select_one, picked_neg]
    exact RefSoftmax.probs_apply x i 0
  · rw [h, moved_zero, inRange_1, clampIdx_1, select_one, picked_zero]
    exact RefSoftmax.probs_apply x i 1
  · rw [h, moved_one, inRange_2, clampIdx_2, select_one, picked_one]
    exact RefSoftmax.probs_apply x i 2

/-- The residual of row i: the picked entry less the label read as a number. -/
theorem residual_apply (x : FVec Ideal S8388608x3 .f32) (l : IVec S8388608 32) (i : Fin 8388608)
    (hc : l (ix1 i) = 0xFFFFFFFF#32 ∨ l (ix1 i) = 0#32 ∨ l (ix1 i) = 1#32) :
    RefTerm.residual (F := Ideal) x l (ix1 i)
      = Cert.Loss.picked (fun k => x (ix2 i k)) (l (ix1 i)) - (((l (ix1 i)).toInt : ℝ) : EReal) := by
  have hsc : shapeCast S8388608 (RefTerm.taken (RefTerm.probs (F := Ideal) x) (RefTerm.classColumn l)) shapeCasts_S8388608x1_S8388608 (ix1 i)
      = RefTerm.taken (RefTerm.probs (F := Ideal) x) (RefTerm.classColumn l) (ix2 i (0 : Fin 1)) := by
    refine shapeCast_apply _ _ _ (ix2 i (0 : Fin 1)) ?_
    rw [Shape.rowMajor_val_two, Shape.rowMajor_val_one]
    simp
  unfold RefTerm.residual
  refine (subf_apply _ _ _).trans ?_
  rw [hsc, taken_apply x l i hc]
  rfl

/-- Row i's weight times its squared residual is the row's term. -/
theorem row_eq (x : FVec Ideal S8388608x3 .f32) (l : IVec S8388608 32) (i : Fin 8388608)
    (hc : l (ix1 i) = 0xFFFFFFFF#32 ∨ l (ix1 i) = 0#32 ∨ l (ix1 i) = 1#32) :
    mulf (RefTerm.weights (F := Ideal) l) (RefTerm.sqErr x l) (ix1 i)
      = Cert.Loss.term (fun k => x (ix2 i k)) (l (ix1 i)) := by
  refine (mulf_apply _ _ _).trans ?_
  unfold RefTerm.sqErr
  rw [mulf_apply]
  rw [residual_apply x l i hc, weights_apply]
  unfold Cert.Loss.term
  congr 1
  rcases hc with h | h | h
  · rw [h, moved_neg, clampIdx_0, weight_neg]
  · rw [h, moved_zero, clampIdx_1, weight_zero]
  · rw [h, moved_one, clampIdx_2, weight_one]

theorem total_eq (x : FVec Ideal S8388608x3 .f32) (l : IVec S8388608 32)
    (hl : ∀ i : Fin 8388608, l (ix1 i) = 0xFFFFFFFF#32 ∨ l (ix1 i) = 0#32 ∨ l (ix1 i) = 1#32) :
    RefTerm.total (F := Ideal) x l = fun _ => Cert.Loss.total (fun i k => x (ix2 i k)) (fun i => l (ix1 i)) := by
  funext j
  rw [total_outer]
  exact Finset.sum_congr rfl (fun i _ => row_eq x l i (hl i))

end Cert.ReferenceIdeal.RefValue

end
-- ==== Proof.lean ====
/-
  The kernel and the reference compute one number: over 8388608 rows of three logits and a label in {-1, 0, 1},
  the sum of weight(label) · (softmax(row)[label + 1] - label)² with weights (2, 1/2, 2).

  The kernel walks the rows in 1024 blocks of 8192, forms each block's sum of terms on the vector unit (the class
  and the weight picked by comparing label + 1 with 0 and 1) and adds it into a one-element accumulator it zeroes
  at the first block; the reference forms the whole softmax, takes the entry at label + 1 along the class axis,
  reads the weight from a three-entry table, and sums over all rows at once. On the extended reals the softmax
  stages are the same operations on both sides; for a label in {-1, 0, 1} the take and the table read pick what the
  comparisons pick; and a sum over all rows is the sum of the blocks' sums. The labels' range is the
  precondition's second conjunct (`PreDecode`); the kernel's number is `KernelValue.run`; the reference's
  is `RefRun.run` with `RefValue.total_eq`; the frames of the two kernel programs are their generated frame
  certificates, the reference's is its run with the result dropped; the idealization rewrote nothing.
-/
import proofs.«427167_j22522808500489_2_alg».proof.Defs
import proofs.«427167_j22522808500489_2_alg».proof.Proof.Gen.Kernel
import proofs.«427167_j22522808500489_2_alg».proof.Proof.Gen.Kernel.Frame
import proofs.«427167_j22522808500489_2_alg».proof.Proof.Gen.KernelIdeal
import proofs.«427167_j22522808500489_2_alg».proof.Proof.Gen.KernelIdeal.Frame
import proofs.«427167_j22522808500489_2_alg».proof.Proof.Gen.ReferenceIdeal
import proofs.«427167_j22522808500489_2_alg».proof.Proof.Gen.Pre_finite_inputs
import proofs.«427167_j22522808500489_2_alg».proof.Proof.Spec
import proofs.«427167_j22522808500489_2_alg».proof.Proof.PreDecode
import proofs.«427167_j22522808500489_2_alg».proof.Proof.KernelValue
import proofs.«427167_j22522808500489_2_alg».proof.Proof.RefRun
import proofs.«427167_j22522808500489_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at `Cert.Loss.total` of the arguments: the kernel's by its value run; the reference's by its run
    and, the labels being in range by the precondition and the arguments agreeing, by the evaluation of its term. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.total_eq _ _ (Cert.Pre_finite_inputs.Decode.labels_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
